-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S256 : S_.BroadcastsInDim S256 (![] : Fin 0 → Fin S256.rank)
  reducesTo_S256_S_d0 : S256.ReducesTo [0] S_
  bcast_S_S256x4096 : S_.BroadcastsInDim S256x4096 (![] : Fin 0 → Fin S256x4096.rank)
  reducesTo_S256x4096_S_d0_1 : S256x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_v13 : IVec S_ 1) (main_v16 : IVec S256x4096 1) : IVec S_ 1 :=
  let main_c_5 : IVec S_ 1 := constantI S_ 1 1#1
  let main_v17 : IVec S_ 1 := (fun x v => Host.reduce IntOp.andi x v reducesTo_S256x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x2048x4096 .f32) (main_arg1 : FVec F S4096x256 .f32) (main_arg2 : FVec F S256 .f32) (main_arg3 : FVec F S256x4096 .f32) (main_arg4 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x256 .f32 := Host.absf main_arg1
  let main_cst_0 : FVec F S_ .f32 := constant S_ .f32 0x7F800000#32
  let main_v5 : FVec F S4096x256 .f32 := broadcastInDim S4096x256 ![] bcast_S_S4096x256 main_cst_0
  let main_v6 : IVec S4096x256 1 := cmpf .olt main_v4 main_v5
  let main_c_1 : IVec S_ 1 := constantI S_ 1 1#1
  let main_v7 : IVec S_ 1 := (fun x v => Host.reduce IntOp.andi x v reducesTo_S4096x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x4096 .f32 := Host.absf main_arg3
  let main_cst_4 : FVec F S_ .f32 := constant S_ .f32 0x7F800000#32
  let main_v15 : FVec F S256x4096 .f32 := broadcastInDim S256x4096 ![] bcast_S_S256x4096 main_cst_4
  let main_v16 : IVec S256x4096 1 := cmpf .olt main_v14 main_v15
  fn_part1 (F := F) main_arg4 main_v13 main_v16
-- ==== Kernel.lean ====
abbrev S8x2048x4096 : Shape := ⟨3, ![8, 2048, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S256x1 : Shape := ⟨2, ![256, 1]⟩
abbrev S4096x4096 : Shape := ⟨2, ![4096, 4096]⟩
abbrev S1024x256 : Shape := ⟨2, ![1024, 256]⟩
abbrev S1024x4096 : Shape := ⟨2, ![1024, 4096]⟩
abbrev S16384x4096 : Shape := ⟨2, ![16384, 4096]⟩
abbrev S1x4096 : Shape := ⟨2, ![1, 4096]⟩
abbrev S512x4096 : Shape := ⟨2, ![512, 4096]⟩
abbrev S1x1024 : Shape := ⟨2, ![1, 1024]⟩
abbrev S512x1024 : Shape := ⟨2, ![512, 1024]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S256x4096, .f32⟩
  | .hbm, ⟨4, _⟩ => ⟨S4096, .f32⟩
  | .hbm, ⟨5, _⟩ => ⟨S256x1, .f32⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S8x2048x4096, .f32⟩
  | .local _ .vmem, ⟨0, _⟩ => ⟨S1024x256, .f32⟩
  | .local _ .vmem, ⟨1, _⟩ => ⟨S1024x256, .f32⟩
  | .local _ .vmem, ⟨2, _⟩ => ⟨S256x4096, .f32⟩
  | .local _ .vmem, ⟨3, _⟩ => ⟨S256x1, .f32⟩
  | .local _ .vmem, ⟨4, _⟩ => ⟨S1024x4096, .bf16⟩
  | .local _ .vmem, ⟨5, _⟩ => ⟨S1024x4096, .bf16⟩
  | .local _ .vmem, ⟨6, _⟩ => ⟨S512x4096, .f32⟩
  | .local _ .vmem, ⟨7, _⟩ => ⟨S512x4096, .f32⟩
  | .local _ .vmem, ⟨8, _⟩ => ⟨S1024x4096, .bf16⟩
  | .local _ .vmem, ⟨9, _⟩ => ⟨S1024x4096, .bf16⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 32], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S256_S256x1 : S256.ShapeCasts S256x1
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x4096 : S256x1.Broadcasts S256x4096
  inb_S1024x4096_S1024x4096_0_0 : ∀ a, (![0, 0] : Fin 2 → Nat) a + S1024x4096.size a ≤ S1024x4096.size a
  h_S1024x4096 : 0 < S1024x4096.numel
  packedbf16_S1024x4096_S1024x4096_0_0 : (Rect.unit (s := S1024x4096) ![0, 0] S1024x4096.size inb_S1024x4096_S1024x4096_0_0).PackedRows (EltTy.packing .bf16)
  shapeCasts_S8x2048x4096_S16384x4096 : S8x2048x4096.ShapeCasts S16384x4096
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S16384x4096_S8x2048x4096 : S16384x4096.ShapeCasts S8x2048x4096
  dot_S1024x256_S256x4096_S1024x4096_1_0_0_1_n_n_wf : DotDims.WF S1024x256 S256x4096 S1024x4096 [1] [0] [0] [1] [] []
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x4096.size a
  hwx0_1 : ∀ i : grid0.Coords, EltTy.bits .f32 = 32 ∨ (Rect.block (s := S256x4096) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S256x1.size a
  hwx0_2 : ∀ i : grid0.Coords, EltTy.bits .f32 = 32 ∨ (Rect.block (s := S256x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S4096x4096.size a
  hwx0_3 : ∀ i : grid0.Coords, EltTy.bits .bf16 = 32 ∨ (Rect.block (s := S4096x4096) S1024x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S16384x4096.size a
  hwx1_0 : ∀ i : grid1.Coords, EltTy.bits .f32 = 32 ∨ (Rect.block (s := S16384x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S16384x4096.size a
  hwx1_3 : ∀ i : grid1.Coords, EltTy.bits .f32 = 32 ∨ (Rect.block (s := S16384x4096) S512x1024.size (cc1_transform_3 i) (hinb1_3 i)).WholeWords (EltTy.packing .f32)

variable [Facts₀]

def dot_S1024x256_S256x4096_S1024x4096_1_0_0_1_n_n : DotDims S1024x256 S256x4096 S1024x4096 where
  lhsContracting := [1]
  rhsContracting := [0]
  lhsNonContracting := [0]
  rhsNonContracting := [1]
  lhsBatch := []
  rhsBatch := []
  wf := dot_S1024x256_S256x4096_S1024x4096_1_0_0_1_n_n_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x4096 : Shape := ⟨3, ![8, 2048, 4096]⟩
abbrev S4096x256 : Shape := ⟨2, ![4096, 256]⟩
abbrev S256 : Shape := ⟨1, ![256]⟩
abbrev S256x4096 : Shape := ⟨2, ![256, 4096]⟩
abbrev S4096 : Shape := ⟨1, ![4096]⟩
abbrev S256x1 : Shape := ⟨2, ![256, 1]⟩
abbrev S4096x4096 : Shape := ⟨2, ![4096, 4096]⟩
abbrev S1x1x4096 : Shape := ⟨3, ![1, 1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x256, .f32⟩
  | .hbm, ⟨2, _⟩ => ⟨S256, .f32⟩
  | .hbm, ⟨3, _⟩ => ⟨S256x4096, .f32⟩
  | .hbm, ⟨4, _⟩ => ⟨S4096, .f32⟩
  | .hbm, ⟨5, _⟩ => ⟨S256x1, .f32⟩
  | .hbm, ⟨6, _⟩ => ⟨S256x4096, .f32⟩
  | .hbm, ⟨7, _⟩ => ⟨S256x4096, .f32⟩
  | .hbm, ⟨8, _⟩ => ⟨S4096x4096, .f32⟩
  | .hbm, ⟨9, _⟩ => ⟨S8x2048x4096, .f32⟩
  | .hbm, ⟨10, _⟩ => ⟨S1x1x4096, .f32⟩
  | .hbm, ⟨11, _⟩ => ⟨S8x2048x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S256x1_S256x4096_0_1 : S256x1.BroadcastsInDim S256x4096 (![0, 1] : Fin 2 → Fin S256x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S4096x256_S256x4096_S4096x4096_1_0_0_1_n_n_wf : DotDims.WF S4096x256 S256x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x256_S256x4096_S4096x4096_1_0_0_1_n_n : DotDims S4096x256 S256x4096 S4096x4096 where
  lhsContracting := [1]
  rhsContracting := [0]
  lhsNonContracting := [0]
  rhsNonContracting := [1]
  lhsBatch := []
  rhsBatch := []
  wf := dot_S4096x256_S256x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.Spec.lean ====
/-
  The function both programs compute, over the extended reals, and the one re-arrangement between the kernel's
  two-stage form and the whole.

  A low-rank linear layer: the weight is U · diag(S) · Vt, an [out, in] array whose entry (o, i) is the sum over the
  rank coordinate r of U[o, r] · (Vt[r, i] · S[r]); the layer sends a row x[b, t, ·] to the sums over i of
  x[b, t, i] · weight[o, i], plus bias[o].

  The kernel works on flattened arrays: S as a column [256, 1], x as [16384, 4096] rows (row b·2048 + t), the bias as a
  row [1, 4096]; it first forms the weight (`scaledProduct`), then the affine map of the flat rows (`affineRows`), and
  casts the flat result back to [8, 2048, 4096]. `result_eq` says that this composite is `result`, entry by entry:
  a shape cast keeps row-major positions, so flat row b·2048 + t is row (b, t).
-/
import Idealize.ShloMosaic.PureOps.Ideal.Laws
import Idealize.ShloMosaic.Lib.ValueIdx
import Idealize.ShloMosaic.Lib.ValueLayout
import Idealize.ShloMosaic.Lib.Pipeline.Value
import proofs.«143076_j12086037971009_1_alg».proof.Proof.LibKeepdims

noncomputable section

open scoped BigOperators

namespace LowRankLinear

open Idealize.ShloMosaic Idealize.ShloMosaic.ValueIdx

abbrev Sx : Shape := ⟨3, ![8, 2048, 4096]⟩
abbrev SU : Shape := ⟨2, ![4096, 256]⟩
abbrev SS : Shape := ⟨1, ![256]⟩
abbrev SScol : Shape := ⟨2, ![256, 1]⟩
abbrev SVt : Shape := ⟨2, ![256, 4096]⟩
abbrev Sbias : Shape := ⟨1, ![4096]⟩
abbrev Sbiasrow : Shape := ⟨2, ![1, 4096]⟩
abbrev SW : Shape := ⟨2, ![4096, 4096]⟩
abbrev Sflat : Shape := ⟨2, ![16384, 4096]⟩

/-- The weight's entry (o, i) from the column form of S: the sum over r of U[o, r] · (Vt[r, i] · S[r, 0]). -/
def scaledProduct (U : SU.Idx → EReal) (Scol : SScol.Idx → EReal) (Vt : SVt.Idx → EReal) : SW.Idx → EReal :=
  fun j => ∑ r : Fin 256, U (ix2 (n0 := 4096) (n1 := 256) ⟨(j 0).val, (j 0).isLt⟩ r)
    * (Vt (ix2 (n0 := 256) (n1 := 4096) r ⟨(j 1).val, (j 1).isLt⟩) * Scol (ix2 (n0 := 256) (n1 := 1) r 0))

theorem scaledProduct_apply (U : SU.Idx → EReal) (Scol : SScol.Idx → EReal) (Vt : SVt.Idx → EReal) (o i : Fin 4096) :
    scaledProduct U Scol Vt (ix2 o i) = ∑ r : Fin 256, U (ix2 o r) * (Vt (ix2 r i) * Scol (ix2 r (0 : Fin 1))) := rfl

/-- The affine map of flat rows: entry (row, o) is the sum over i of X[row, i] · W[o, i], plus the bias row at o. -/
def affineRows (X : Sflat.Idx → EReal) (W : SW.Idx → EReal) (brow : Sbiasrow.Idx → EReal) : Sflat.Idx → EReal :=
  fun j => (∑ k : Fin 4096, X (ix2 (n0 := 16384) (n1 := 4096) ⟨(j 0).val, (j 0).isLt⟩ k)
      * W (ix2 (n0 := 4096) (n1 := 4096) ⟨(j 1).val, (j 1).isLt⟩ k))
    + brow (ix2 (n0 := 1) (n1 := 4096) 0 ⟨(j 1).val, (j 1).isLt⟩)

theorem affineRows_apply (X : Sflat.Idx → EReal) (W : SW.Idx → EReal) (brow : Sbiasrow.Idx → EReal) (row : Fin 16384) (o : Fin 4096) :
    affineRows X W brow (ix2 row o) = (∑ k : Fin 4096, X (ix2 row k) * W (ix2 o k)) + brow (ix2 (0 : Fin 1) o) := rfl

/-- The layer's output at (b, t, o). -/
def result (x : Sx.Idx → EReal) (U : SU.Idx → EReal) (S : SS.Idx → EReal) (Vt : SVt.Idx → EReal) (bias : Sbias.Idx → EReal) :
    Sx.Idx → EReal :=
  fun j => (∑ k : Fin 4096, x (ix3 (n0 := 8) (n1 := 2048) (n2 := 4096) ⟨(j 0).val, (j 0).isLt⟩ ⟨(j 1).val, (j 1).isLt⟩ k)
      * ∑ r : Fin 256, U (ix2 (n0 := 4096) (n1 := 256) ⟨(j 2).val, (j 2).isLt⟩ r)
          * (Vt (ix2 (n0 := 256) (n1 := 4096) r k) * S (ix1 r)))
    + bias (ix1 (n := 4096) ⟨(j 2).val, (j 2).isLt⟩)

theorem result_apply (x : Sx.Idx → EReal) (U : SU.Idx → EReal) (S : SS.Idx → EReal) (Vt : SVt.Idx → EReal) (bias : Sbias.Idx → EReal)
    (b : Fin 8) (t : Fin 2048) (o : Fin 4096) :
    result x U S Vt bias (ix3 b t o)
      = (∑ k : Fin 4096, x (ix3 b t k) * ∑ r : Fin 256, U (ix2 o r) * (Vt (ix2 r k) * S (ix1 r))) + bias (ix1 o) := rfl

/-- The two-stage form on the flattened arrays, cast back, is the layer's output. -/
theorem result_eq (x : Sx.Idx → EReal) (U : SU.Idx → EReal) (S : SS.Idx → EReal) (Vt : SVt.Idx → EReal) (bias : Sbias.Idx → EReal)
    (hx : Sx.ShapeCasts Sflat) (hS : SS.ShapeCasts SScol) (hb : Sbias.ShapeCasts Sbiasrow) (hy : Sflat.ShapeCasts Sx) :
    shapeCast Sx (affineRows (shapeCast Sflat x hx) (scaledProduct U (shapeCast SScol S hS) Vt) (shapeCast Sbiasrow bias hb)) hy
      = result x U S Vt bias := by
  funext j
  obtain ⟨b, t, o, rfl⟩ : ∃ (b : Fin 8) (t : Fin 2048) (o : Fin 4096), j = ix3 b t o := ⟨j 0, j 1, j 2, eq_ix3 j⟩
  have hrow : b.val * 2048 + t.val < 16384 := by have := b.isLt; have := t.isLt; omega
  rw [shapeCast_apply _ hy (ix3 b t o) (ix2 (n0 := 16384) (n1 := 4096) ⟨b.val * 2048 + t.val, hrow⟩ o)
    (by rw [Shape.rowMajor_val_two, Shape.rowMajor_val_three]; rfl)]
  rw [affineRows_apply, result_apply, shapeCast_a_1a_apply bias hb 0 o]
  refine congrArg (· + bias (ix1 o)) (Finset.sum_congr rfl fun k _ => ?_)
  rw [shapeCast_apply x hx (ix2 (n0 := 16384) (n1 := 4096) ⟨b.val * 2048 + t.val, hrow⟩ k) (ix3 b t k)
    (by rw [Shape.rowMajor_val_two, Shape.rowMajor_val_three]; rfl), scaledProduct_apply]
  refine congrArg (x (ix3 b t k) * ·) (Finset.sum_congr rfl fun r _ => ?_)
  rw [Keepdims.shapeCast_a_a1_apply S hS r 0]

end LowRankLinear

end
-- ==== Proof.LibPlainDot.lean ====
/-
  The matrix product of an M×K array with a K×N array, read at an output index (r, q), is the sum over the one
  contracted coordinate k of the left operand at (r, k) times the right operand at (k, q). Stated once for the plain
  dimension numbers (contract the left operand's last axis with the right operand's first, no batch axis), for a
  product into a zero accumulator inside a kernel body and for the host's product, both over the extended reals.
  A program's own dimension-number record of this form is equal to the plain one by unfolding.
-/
import Idealize.ShloMosaic.PureOps.Ideal.Laws
import Idealize.ShloMosaic.Lib.ValueIdx

noncomputable section

open scoped BigOperators

namespace PlainDot

open Idealize.ShloMosaic Idealize.ShloMosaic.ValueIdx

variable (M K N : Nat)

/-- The left operand's index at output index `j` and contraction index `q`: row of `j`, … -/
theorem lhs0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
/-- … and the contracted coordinate. -/
theorem lhs1 (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q
/-- The right operand's index: the contracted coordinate, … -/
theorem rhs0 (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q
/-- … and the column of `j`. -/
theorem rhs1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum, re-indexed by the one contracted coordinate. -/
theorem sum_eq (x : (⟨2, ![M, K]⟩ : Shape).Idx → EReal) (w : (⟨2, ![K, N]⟩ : Shape).Idx → EReal) (j : (⟨2, ![M, N]⟩ : Shape).Idx) :
    ∑ q : (DotDims.plain M K N).contr.Idx, x ((DotDims.plain M K N).lhsIdx j q) * w ((DotDims.plain M K N).rhsIdx j q)
      = ∑ k : Fin K, x (ix2 (n0 := M) (n1 := K) ⟨(j 0).val, (j 0).isLt⟩ k) * w (ix2 (n0 := K) (n1 := N) k ⟨(j 1).val, (j 1).isLt⟩) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k)
      = ix2 (n0 := M) (n1 := K) ⟨(j 0).val, (j 0).isLt⟩ k := funext fun a => Fin.ext (by
    match a with
    | ⟨0, _⟩ => exact lhs0 M K N _ _
    | ⟨1, _⟩ => exact (lhs1 M K N _ _).trans hk)
  have er : (DotDims.plain M K N).rhsIdx j ((contrEquiv1 (DotDims.plain M K N) K rfl rfl).symm k)
      = ix2 (n0 := K) (n1 := N) k ⟨(j 1).val, (j 1).isLt⟩ := funext fun a => Fin.ext (by
    match a with
    | ⟨0, _⟩ => exact (rhs0 M K N _ _).trans hk
    | ⟨1, _⟩ => exact rhs1 M K N _ _)
  rw [el, er]

/-- A kernel's matrix product into the zero accumulator, at an index. -/
theorem matmul_zero_apply {φ₁ φ₂ : FTy} (x : FVec Ideal ⟨2, ![M, K]⟩ φ₁) (w : FVec Ideal ⟨2, ![K, N]⟩ φ₂) (j : (⟨2, ![M, N]⟩ : Shape).Idx) :
    FloatOps.matmul (DotDims.plain M K N) none x w (constant ⟨2, ![M, N]⟩ .f32 0x00000000#32) j
      = ∑ k : Fin K, x (ix2 (n0 := M) (n1 := K) ⟨(j 0).val, (j 0).isLt⟩ k) * w (ix2 (n0 := K) (n1 := N) k ⟨(j 1).val, (j 1).isLt⟩) := by
  rw [Ideal.matmul_constant_zero_apply]
  exact sum_eq M K N x w j

/-- The host's matrix product, at an index. -/
theorem dotGeneral_apply {φ₁ φ₂ : FTy} (sched : HostSchedule) (x : FVec Ideal ⟨2, ![M, K]⟩ φ₁) (w : FVec Ideal ⟨2, ![K, N]⟩ φ₂) (j : (⟨2, ![M, N]⟩ : Shape).Idx) :
    FloatOps.dotGeneral (DotDims.plain M K N) none sched x w j
      = ∑ k : Fin K, x (ix2 (n0 := M) (n1 := K) ⟨(j 0).val, (j 0).isLt⟩ k) * w (ix2 (n0 := K) (n1 := N) k ⟨(j 1).val, (j 1).isLt⟩) := by
  rw [Ideal.dotGeneral_apply]
  exact sum_eq M K N x w j

end PlainDot

end
-- ==== Proof.WeightStage.lean ====
/-
  The first stage of the kernel: the weight array.

  The kernel's first call walks the 4096 output rows of the weight in four tiles of 1024 rows. At tile n it holds rows
  n·1024 … n·1024 + 1023 of U, the whole of Vt and the whole column S, scales the rows of Vt by S, multiplies, and writes
  the 1024 × 4096 tile back. A change of float format is the identity on extended reals, and the product into the zero
  accumulator is the plain sum over the rank coordinate, so entry (p, q) of tile n is
      Σ_r U[n·1024 + p, r] · (Vt[r, q] · S[r, 0]),
  which is entry (n·1024 + p, q) of `LowRankLinear.scaledProduct`. The four tiles cover every row, so after the call the
  weight array holds `scaledProduct` of the arrays the call found, whatever they are.
-/
import proofs.«143076_j12086037971009_1_alg».proof.Proof.Gen.KernelIdeal.Frame
import proofs.«143076_j12086037971009_1_alg».proof.Proof.Spec
import proofs.«143076_j12086037971009_1_alg».proof.Proof.LibPlainDot
import proofs.«143076_j12086037971009_1_alg».proof.Proof.LibKeepdims
import Idealize.ShloMosaic.Lib.Pipeline.Value

set_option maxRecDepth 16384

noncomputable section

open scoped BigOperators

namespace Cert.KernelIdeal.WeightStage

open Cert.KernelIdeal Cert.KernelIdeal.Gen Idealize.ShloMosaic Idealize.ShloMosaic.TcCoe Idealize.SL.Sem
open Idealize.ShloMosaic.ValueIdx LowRankLinear
open Idealize.ShloMosaic.Pipeline (Dat)

theorem hz : (![0, 0] : Fin 2 → Nat) = fun _ => 0 := funext fun a => by fin_cases a <;> rfl

/-- What the body stores, at entry (p, q) of the tile, from the three blocks it loads. -/
theorem tile_apply (x0 : Vec Ideal S1024x256 .f32) (x1 : Vec Ideal S256x4096 .f32) (x2 : Vec Ideal S256x1 .f32)
    (p : Fin 1024) (q : Fin 4096) :
    k0_pay1 (F := Ideal) x0 x1 x2 (ix2 p q) = ∑ r : Fin 256, x0 (ix2 p r) * (x1 (ix2 r q) * x2 (ix2 r (0 : Fin 1))) := by
  unfold k0_pay1
  refine (PlainDot.matmul_zero_apply 1024 256 4096 _ _ (ix2 p q)).trans ?_
  refine Finset.sum_congr rfl fun r _ => ?_
  show x0 (ix2 p r) * (x1 (ix2 r q) * broadcastTo S256x4096 (shapeCast S256x1 x2 _) _ (ix2 r q)) = _
  rw [Keepdims.broadcastTo_a1_ab_apply, shapeCast_self]

/-- The same against whole arrays: if the loaded blocks are rows n·1024 … of U, all of Vt and all of the column S, the
    stored entry at y is `scaledProduct` at the array index i that y stands for. -/
theorem tile_eq (x0 : Vec Ideal S1024x256 .f32) (x1 : Vec Ideal S256x4096 .f32) (x2 : Vec Ideal S256x1 .f32)
    (U : SU.Idx → EReal) (Scol : SScol.Idx → EReal) (Vt : SVt.Idx → EReal) (n : Nat)
    (h0 : ∀ (p : Fin 1024) (r : Fin 256) (hp : n * 1024 + p.val < 4096), x0 (ix2 p r) = U (ix2 ⟨n * 1024 + p.val, hp⟩ r))
    (h1 : ∀ (r : Fin 256) (q : Fin 4096), x1 (ix2 r q) = Vt (ix2 r q))
    (h2 : ∀ r : Fin 256, x2 (ix2 r (0 : Fin 1)) = Scol (ix2 r (0 : Fin 1)))
    (y : S1024x4096.Idx) (i : SW.Idx) (hi0 : (i 0).val = n * 1024 + (y 0).val) (hi1 : (i 1).val = (y 1).val) :
    k0_pay1 (F := Ideal) x0 x1 x2 y = scaledProduct U Scol Vt i := by
  obtain ⟨p, q, rfl⟩ : ∃ (p : Fin 1024) (q : Fin 4096), y = ix2 p q := ⟨y 0, y 1, eq_ix2 y⟩
  have hp : n * 1024 + p.val < 4096 := by
    have h4 : (i 0).val < 4096 := (i 0).isLt
    have h5 : (i 0).val = n * 1024 + p.val := hi0
    omega
  obtain rfl : i = ix2 (n0 := 4096) (n1 := 4096) ⟨n * 1024 + p.val, hp⟩ q := by
    rw [eq_ix2 i]; congr 1 <;> exact Fin.ext (by first | exact hi0 | exact hi1)
  rw [tile_apply, scaledProduct_apply]
  refine Finset.sum_congr rfl fun r _ => ?_
  rw [h0 p r hp, h1, h2]

variable (V : (c : Dev nD) → (b : Ref sig .tc) → Buf (Elt Ideal) ((c : Thread nD τ).loc b))

/-- The printed index maps over the four tiles: U's and the weight's block row is the tile number, everything else
    sits at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What tile t writes back is block t of `scaledProduct` of the arrays as the call finds them. -/
theorem flushed_eq (c : Dev nD) (t : Fin cfg0.N) :
    (dat0 V c).flushed 3 t
      = ((cfg0.win 3).blk t).view.read (Elt Ideal) (scaledProduct (V c main_arg1) (V c main_v0) (V c main_arg3)) := by
  show (cfg0.win 3).cut (grid0.coords t) ((dat0 V c).after 3 t) = _
  rw [after0_3]
  unfold out0_3
  rw [View.canon_unit_zero hz]
  simp only [View.ld_unit_zero (S := S1024x256) hz, View.ld_unit_zero (S := S256x4096) hz, View.ld_unit_zero (S := S256x1) hz]
  obtain ⟨e00, e01, e10, e11, e20, e21, e30, e31⟩ := idx_facts t
  funext y
  refine tile_eq (iblk0 V c 0 t) (iblk0 V c 1 t) (iblk0 V c 2 t) (V c main_arg1) (V c main_v0) (V c main_arg3) t.val
    (fun p r hp => ?_) (fun r q => ?_) (fun r => ?_) y (((cfg0.win 3).blk t).view.emb y) ?_ ?_
  · show V c main_arg1 (((cfg0.win 0).blk t).view.emb (ix2 p r)) = V c main_arg1 _
    have h : ((cfg0.win 0).blk t).view.emb (ix2 p r) = ix2 (n0 := 4096) (n1 := 256) ⟨t.val * 1024 + p.val, hp⟩ r := by
      funext a; apply Fin.ext
      match a with
      | ⟨0, _⟩ => show win0_0.index t (0 : Fin 2) * 1024 + 1 * p.val = t.val * 1024 + p.val; rw [e00]; omega
      | ⟨1, _⟩ => show win0_0.index t (1 : Fin 2) * 256 + 1 * r.val = r.val; rw [e01]; omega
    rw [h]
  · show V c main_arg3 (((cfg0.win 1).blk t).view.emb (ix2 r q)) = V c main_arg3 _
    have h : ((cfg0.win 1).blk t).view.emb (ix2 r q) = ix2 (n0 := 256) (n1 := 4096) r q := by
      funext a; apply Fin.ext
      match a with
      | ⟨0, _⟩ => show win0_1.index t (0 : Fin 2) * 256 + 1 * r.val = r.val; rw [e10]; omega
      | ⟨1, _⟩ => show win0_1.index t (1 : Fin 2) * 4096 + 1 * q.val = q.val; rw [e11]; omega
    rw [h]
  · show V c main_v0 (((cfg0.win 2).blk t).view.emb (ix2 r (0 : Fin 1))) = V c main_v0 _
    have h : ((cfg0.win 2).blk t).view.emb (ix2 r (0 : Fin 1)) = ix2 (n0 := 256) (n1 := 1) r 0 := by
      funext a; apply Fin.ext
      match a with
      | ⟨0, _⟩ => show win0_2.index t (0 : Fin 2) * 256 + 1 * r.val = r.val; rw [e20]; omega
      | ⟨1, _⟩ => show win0_2.index t (1 : Fin 2) * 1 + 1 * 0 = 0; rw [e21]
    rw [h]
  · show win0_3.index t (0 : Fin 2) * 1024 + 1 * (y 0).val = t.val * 1024 + (y 0).val; rw [e30]; omega
  · show win0_3.index t (1 : Fin 2) * 4096 + 1 * (y 1).val = (y 1).val; rw [e31]; omega

/-- An index of the weight array is in tile t's block iff each coordinate is in the block's range on its axis. -/
theorem mem_blk (t : Fin cfg0.N) (i : S4096x4096.Idx) :
    i ∈ ((cfg0.win 3).blk t).view.set ↔ ∀ a : Fin 2, win0_3.index t a * S1024x4096.size a ≤ (i a).val
      ∧ (i a).val < win0_3.index t a * S1024x4096.size a + S1024x4096.size a := by
  show i ∈ ((View.whole main_v1).slice (win0_3.rect t)).set ↔ _
  rw [View.set_slice_whole, Rect.mem_set_unit]
  exact Iff.rfl

/-- Every row of the weight array is in the tile numbered by its row divided by 1024. -/
theorem cover (i : S4096x4096.Idx) : ∃ t : Fin cfg0.N, (cfg0.win 3).flush t = true ∧ i ∈ ((cfg0.win 3).blk t).view.set := by
  have hi0 : (i 0).val < 4096 := (i 0).isLt
  have hi1 : (i 1).val < 4096 := (i 1).isLt
  obtain ⟨t, ht⟩ : ∃ t : Fin cfg0.N, t.val = (i 0).val / 1024 :=
    ⟨⟨(i 0).val / 1024, by rw [show cfg0.N = 4 from N_0]; omega⟩, rfl⟩
  obtain ⟨-, -, -, -, -, -, e30, e31⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e30, ht]; omega
  | ⟨1, _⟩ =>
    show win0_3.index t (1 : Fin 2) * 4096 ≤ (i 1).val ∧ (i 1).val < win0_3.index t (1 : Fin 2) * 4096 + 4096
    rw [e31]; omega

/-- After the call the weight array holds `scaledProduct` of U, the column S and Vt as the call found them. -/
theorem final (c : Dev nD) :
    (dat0 V c).arrAt 3 cfg0.N = scaledProduct (V c main_arg1) (V c main_v0) (V c main_arg3) :=
  (dat0 V c).arrAt_eq_of_cover 3 _ (fun t _ => flushed_eq V c t) cover

end Cert.KernelIdeal.WeightStage

end
-- ==== Proof.LibDotTransposedRhs.lean ====
/-
  The product of an M×K array with the transpose of an N×K array — both operands contracted on their LAST axis, no batch
  axis —, read at an output index (r, c), is the sum over the one contracted coordinate k of the left operand at (r, k)
  times the right operand at (c, k). Stated once for those dimension numbers (`DotDims.transposedRhs`), for a product
  into a zero accumulator inside a kernel body and for the host's product, both over the extended reals. A program's own
  dimension-number record of this form is equal to that one by unfolding.
-/
import Idealize.ShloMosaic.PureOps.Ideal.Laws
import Idealize.ShloMosaic.Lib.ValueIdx

noncomputable section

open scoped BigOperators

namespace TransposedRhsDot

open Idealize.ShloMosaic Idealize.ShloMosaic.ValueIdx

variable (M K N : Nat)

/-- The left operand's index at output index `j` and contraction index `q`: the row of `j`, … -/
theorem lhs0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl
/-- … and the contracted coordinate. -/
theorem lhs1 (j : (⟨2, ![M, N]⟩ : Shape).Idx) (q : (DotDims.transposedRhs M K N).contr.Idx) :
    ((DotDims.transposedRhs M K N).lhsIdx j q 1).val = (q ⟨0, Nat.one_pos⟩).val :=
  (DotDims.transposedRhs M K N).lhsIdx_val_of_single rfl j q
/-- The right operand's index: the COLUMN of `j` (the right operand's rows are the output's columns), … -/
theorem rhs0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl
/-- … and the contracted coordinate. -/
theorem rhs1 (j : (⟨2, ![M, N]⟩ : Shape).Idx) (q : (DotDims.transposedRhs M K N).contr.Idx) :
    ((DotDims.transposedRhs M K N).rhsIdx j q 1).val = (q ⟨0, Nat.one_pos⟩).val :=
  (DotDims.transposedRhs M K N).rhsIdx_val_of_single rfl j q

/-- The contraction's sum at the output index (r, c), re-indexed by the one contracted coordinate. -/
theorem sum_eq (x : (⟨2, ![M, K]⟩ : Shape).Idx → EReal) (w : (⟨2, ![N, K]⟩ : Shape).Idx → EReal) (r : Fin M) (c : Fin N) :
    ∑ q : (DotDims.transposedRhs M K N).contr.Idx,
        x ((DotDims.transposedRhs M K N).lhsIdx (ix2 r c) q) * w ((DotDims.transposedRhs M K N).rhsIdx (ix2 r c) q)
      = ∑ k : Fin K, x (ix2 r k) * w (ix2 c k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r c) ((contrEquiv1 (DotDims.transposedRhs M K N) K rfl rfl).symm k)
      = ix2 r k := funext fun a => Fin.ext (by
    match a with
    | ⟨0, _⟩ => exact lhs0 M K N _ _
    | ⟨1, _⟩ => exact (lhs1 M K N _ _).trans hk)
  have er : (DotDims.transposedRhs M K N).rhsIdx (ix2 r c) ((contrEquiv1 (DotDims.transposedRhs M K N) K rfl rfl).symm k)
      = ix2 c k := funext fun a => Fin.ext (by
    match a with
    | ⟨0, _⟩ => exact rhs0 M K N _ _
    | ⟨1, _⟩ => exact (rhs1 M K N _ _).trans hk)
  rw [el, er]

/-- A kernel's product into the zero accumulator, at (r, c). -/
theorem matmul_zero_apply {φ₁ φ₂ : FTy} (x : FVec Ideal ⟨2, ![M, K]⟩ φ₁) (w : FVec Ideal ⟨2, ![N, K]⟩ φ₂) (r : Fin M) (c : Fin N) :
    FloatOps.matmul (DotDims.transposedRhs M K N) none x w (constant ⟨2, ![M, N]⟩ .f32 0x00000000#32) (ix2 r c)
      = ∑ k : Fin K, x (ix2 r k) * w (ix2 c k) := by
  rw [Ideal.matmul_constant_zero_apply]
  exact sum_eq M K N x w r c

/-- The host's product, at (r, c). -/
theorem dotGeneral_apply {φ₁ φ₂ : FTy} (sched : HostSchedule) (x : FVec Ideal ⟨2, ![M, K]⟩ φ₁) (w : FVec Ideal ⟨2, ![N, K]⟩ φ₂)
    (r : Fin M) (c : Fin N) :
    FloatOps.dotGeneral (DotDims.transposedRhs M K N) none sched x w (ix2 r c)
      = ∑ k : Fin K, x (ix2 r k) * w (ix2 c k) := by
  rw [Ideal.dotGeneral_apply]
  exact sum_eq M K N x w r c

end TransposedRhsDot

end
-- ==== Proof.AffineStage.lean ====
/-
  The second stage of the kernel: the affine map of the flat rows.

  The kernel's second call walks the [16384, 4096] output in 32 × 4 tiles of 512 rows by 1024 columns, the column-tile
  index outermost: at grid point t the row tile is t mod 32 and the column tile is t / 32. There it holds rows
  (t mod 32)·512 … of the flat x, rows (t / 32)·1024 … of the weight and columns (t / 32)·1024 … of the bias row,
  contracts the two row blocks over their common last axis into the zero accumulator, and adds the bias row to every
  row of the tile. A change of float format is the identity on extended reals, so entry (p, q) of the tile is
      Σ_k X[nr·512 + p, k] · W[nc·1024 + q, k] + brow[0, nc·1024 + q],
  which is `LowRankLinear.affineRows` at (nr·512 + p, nc·1024 + q). The 128 tiles cover the output, so after the call it
  holds `affineRows` of the arrays the call found, whatever they are.
-/
import proofs.«143076_j12086037971009_1_alg».proof.Proof.Gen.KernelIdeal.Frame
import proofs.«143076_j12086037971009_1_alg».proof.Proof.Spec
import proofs.«143076_j12086037971009_1_alg».proof.Proof.LibDotTransposedRhs
import Idealize.ShloMosaic.Lib.Pipeline.Value
import Idealize.ShloMosaic.Lib.ValueLayout

set_option maxRecDepth 16384

noncomputable section

open scoped BigOperators

namespace Cert.KernelIdeal.AffineStage

open Cert.KernelIdeal Cert.KernelIdeal.Gen Idealize.ShloMosaic Idealize.ShloMosaic.TcCoe Idealize.SL.Sem
open Idealize.ShloMosaic.ValueIdx LowRankLinear
open Idealize.ShloMosaic.Pipeline (Dat)

theorem hz : (![0, 0] : Fin 2 → Nat) = fun _ => 0 := funext fun a => by fin_cases a <;> rfl

/-- What the body stores, at entry (p, q) of the tile, from the three blocks it loads. -/
theorem tile_apply (x0 : Vec Ideal S512x4096 .f32) (x1 : Vec Ideal S1024x4096 .bf16) (x2 : Vec Ideal S1x1024 .f32)
    (p : Fin 512) (q : Fin 1024) :
    k1_pay1 (F := Ideal) x0 x1 x2 (ix2 p q) = (∑ k : Fin 4096, x0 (ix2 p k) * x1 (ix2 q k)) + x2 (ix2 (0 : Fin 1) q) := by
  unfold k1_pay1
  show (FloatOps.matmul (F := Ideal) dot_S512x4096_S1024x4096_S512x1024_1_1_0_0_n_n none _ _ (constant (F := Ideal) S512x1024 .f32 0x00000000#32) (ix2 p q) : EReal)
      + (broadcastTo S512x1024 (shapeCast S1x1024 x2 _) _ (ix2 p q) : EReal) = _
  refine congr (congrArg HAdd.hAdd ?_) ?_
  · refine (TransposedRhsDot.matmul_zero_apply 512 4096 1024 _ _ p q).trans ?_
    refine Finset.sum_congr rfl fun k _ => ?_
    show shapeCast S512x4096 x0 _ (ix2 p k) * shapeCast S1024x4096 x1 _ (ix2 q k) = _
    rw [shapeCast_self, shapeCast_self]
  · rw [broadcastTo_1b_ab_apply, shapeCast_self]

/-- The same against whole arrays: if the loaded blocks are rows nr·512 … of X, rows nc·1024 … of W and columns
    nc·1024 … of the bias row, the stored entry at y is `affineRows` at the array index i that y stands for. -/
theorem tile_eq (x0 : Vec Ideal S512x4096 .f32) (x1 : Vec Ideal S1024x4096 .bf16) (x2 : Vec Ideal S1x1024 .f32)
    (X : Sflat.Idx → EReal) (W : SW.Idx → EReal) (brow : Sbiasrow.Idx → EReal) (nr nc : Nat)
    (h0 : ∀ (p : Fin 512) (k : Fin 4096) (hp : nr * 512 + p.val < 16384), x0 (ix2 p k) = X (ix2 ⟨nr * 512 + p.val, hp⟩ k))
    (h1 : ∀ (q : Fin 1024) (k : Fin 4096) (hq : nc * 1024 + q.val < 4096), x1 (ix2 q k) = W (ix2 ⟨nc * 1024 + q.val, hq⟩ k))
    (h2 : ∀ (q : Fin 1024) (hq : nc * 1024 + q.val < 4096),
      x2 (ix2 (0 : Fin 1) q) = brow (ix2 (0 : Fin 1) ⟨nc * 1024 + q.val, hq⟩))
    (y : S512x1024.Idx) (i : Sflat.Idx) (hi0 : (i 0).val = nr * 512 + (y 0).val) (hi1 : (i 1).val = nc * 1024 + (y 1).val) :
    k1_pay1 (F := Ideal) x0 x1 x2 y = affineRows X W brow i := by
  obtain ⟨p, q, rfl⟩ : ∃ (p : Fin 512) (q : Fin 1024), y = ix2 p q := ⟨y 0, y 1, eq_ix2 y⟩
  have hp : nr * 512 + p.val < 16384 := by
    have h4 : (i 0).val < 16384 := (i 0).isLt
    have h5 : (i 0).val = nr * 512 + p.val := hi0
    omega
  have hq : nc * 1024 + q.val < 4096 := by
    have h4 : (i 1).val < 4096 := (i 1).isLt
    have h5 : (i 1).val = nc * 1024 + q.val := hi1
    omega
  obtain rfl : i = ix2 (n0 := 16384) (n1 := 4096) ⟨nr * 512 + p.val, hp⟩ ⟨nc * 1024 + q.val, hq⟩ := by
    rw [eq_ix2 i]; congr 1 <;> exact Fin.ext (by first | exact hi0 | exact hi1)
  rw [tile_apply, affineRows_apply, h2 q hq]
  refine congrArg (· + brow (ix2 (0 : Fin 1) ⟨nc * 1024 + q.val, hq⟩)) (Finset.sum_congr rfl fun k _ => ?_)
  rw [h0 p k hp, h1 q k hq]

variable (V : (c : Dev nD) → (b : Ref sig .tc) → Buf (Elt Ideal) ((c : Thread nD τ).loc b))

/-- The printed index maps over the 128 grid points: the row tile is t mod 32 (x's and the output's block row), the
    column tile is t / 32 (the weight's block row, the bias row's and the output's block column). -/
theorem idx_facts : ∀ t : Fin cfg1.N, win1_0.index t (0 : Fin 2) = t.val % 32 ∧ win1_0.index t (1 : Fin 2) = 0
    ∧ win1_1.index t (0 : Fin 2) = t.val / 32 ∧ win1_1.index t (1 : Fin 2) = 0
    ∧ win1_2.index t (0 : Fin 2) = 0 ∧ win1_2.index t (1 : Fin 2) = t.val / 32
    ∧ win1_3.index t (0 : Fin 2) = t.val % 32 ∧ win1_3.index t (1 : Fin 2) = t.val / 32 :=
  (by decide +kernel : ∀ t : Fin grid1.N, _)

/-- What grid point t writes back is its block of `affineRows` of the arrays as the call finds them. -/
theorem flushed_eq (c : Dev nD) (t : Fin cfg1.N) :
    (dat1 V c).flushed 3 t
      = ((cfg1.win 3).blk t).view.read (Elt Ideal) (affineRows (V c main_v2) (V c main_v1) (V c main_v3)) := by
  show (cfg1.win 3).cut (grid1.coords t) ((dat1 V c).after 3 t) = _
  rw [after1_3]
  unfold out1_3
  rw [View.canon_unit_zero hz]
  simp only [View.ld_unit_zero (S := S512x4096) hz, View.ld_unit_zero (S := S1024x4096) hz, View.ld_unit_zero (S := S1x1024) hz]
  obtain ⟨e00, e01, e10, e11, e20, e21, e30, e31⟩ := idx_facts t
  funext y
  refine tile_eq (iblk1 V c 0 t) (iblk1 V c 1 t) (iblk1 V c 2 t) (V c main_v2) (V c main_v1) (V c main_v3) (t.val % 32) (t.val / 32)
    (fun p k hp => ?_) (fun q k hq => ?_) (fun q hq => ?_) y (((cfg1.win 3).blk t).view.emb y) ?_ ?_
  · show V c main_v2 (((cfg1.win 0).blk t).view.emb (ix2 p k)) = V c main_v2 _
    have h : ((cfg1.win 0).blk t).view.emb (ix2 p k) = ix2 (n0 := 16384) (n1 := 4096) ⟨t.val % 32 * 512 + p.val, hp⟩ k := by
      funext a; apply Fin.ext
      match a with
      | ⟨0, _⟩ => show win1_0.index t (0 : Fin 2) * 512 + 1 * p.val = t.val % 32 * 512 + p.val; rw [e00]; omega
      | ⟨1, _⟩ => show win1_0.index t (1 : Fin 2) * 4096 + 1 * k.val = k.val; rw [e01]; omega
    rw [h]
  · show V c main_v1 (((cfg1.win 1).blk t).view.emb (ix2 q k)) = V c main_v1 _
    have h : ((cfg1.win 1).blk t).view.emb (ix2 q k) = ix2 (n0 := 4096) (n1 := 4096) ⟨t.val / 32 * 1024 + q.val, hq⟩ k := by
      funext a; apply Fin.ext
      match a with
      | ⟨0, _⟩ => show win1_1.index t (0 : Fin 2) * 1024 + 1 * q.val = t.val / 32 * 1024 + q.val; rw [e10]; omega
      | ⟨1, _⟩ => show win1_1.index t (1 : Fin 2) * 4096 + 1 * k.val = k.val; rw [e11]; omega
    rw [h]
  · show V c main_v3 (((cfg1.win 2).blk t).view.emb (ix2 (0 : Fin 1) q)) = V c main_v3 _
    have h : ((cfg1.win 2).blk t).view.emb (ix2 (0 : Fin 1) q) = ix2 (n0 := 1) (n1 := 4096) 0 ⟨t.val / 32 * 1024 + q.val, hq⟩ := by
      funext a; apply Fin.ext
      match a with
      | ⟨0, _⟩ => show win1_2.index t (0 : Fin 2) * 1 + 1 * 0 = 0; rw [e20]
      | ⟨1, _⟩ => show win1_2.index t (1 : Fin 2) * 1024 + 1 * q.val = t.val / 32 * 1024 + q.val; rw [e21]; omega
    rw [h]
  · show win1_3.index t (0 : Fin 2) * 512 + 1 * (y 0).val = t.val % 32 * 512 + (y 0).val; rw [e30]; omega
  · show win1_3.index t (1 : Fin 2) * 1024 + 1 * (y 1).val = t.val / 32 * 1024 + (y 1).val; rw [e31]; omega

/-- An index of the output is in grid point t's block iff each coordinate is in the block's range on its axis. -/
theorem mem_blk (t : Fin cfg1.N) (i : S16384x4096.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v4).slice (win1_3.rect t)).set ↔ _
  rw [View.set_slice_whole, Rect.mem_set_unit]
  exact Iff.rfl

/-- Every entry (row, col) of the output is in the tile of grid point (col / 1024)·32 + row / 512. -/
theorem cover (i : S16384x4096.Idx) : ∃ t : Fin cfg1.N, (cfg1.win 3).flush t = true ∧ i ∈ ((cfg1.win 3).blk t).view.set := by
  have hi0 : (i 0).val < 16384 := (i 0).isLt
  have hi1 : (i 1).val < 4096 := (i 1).isLt
  obtain ⟨t, ht⟩ : ∃ t : Fin cfg1.N, t.val = (i 1).val / 1024 * 32 + (i 0).val / 512 :=
    ⟨⟨(i 1).val / 1024 * 32 + (i 0).val / 512, by rw [show cfg1.N = 128 from N_1]; omega⟩, rfl⟩
  obtain ⟨-, -, -, -, -, -, e30, e31⟩ := idx_facts t
  refine ⟨t, flush1_3 t, ?_⟩
  rw [mem_blk]
  intro a
  match a with
  | ⟨0, _⟩ =>
    show win1_3.index t (0 : Fin 2) * 512 ≤ (i 0).val ∧ (i 0).val < win1_3.index t (0 : Fin 2) * 512 + 512
    rw [e30, ht]; omega
  | ⟨1, _⟩ =>
    show win1_3.index t (1 : Fin 2) * 1024 ≤ (i 1).val ∧ (i 1).val < win1_3.index t (1 : Fin 2) * 1024 + 1024
    rw [e31, ht]; omega

/-- After the call the output holds `affineRows` of the flat x, the weight and the bias row as the call found them. -/
theorem final (c : Dev nD) :
    (dat1 V c).arrAt 3 cfg1.N = affineRows (V c main_v2) (V c main_v1) (V c main_v3) :=
  (dat1 V c).arrAt_eq_of_cover 3 _ (fun t _ => flushed_eq V c t) cover

end Cert.KernelIdeal.AffineStage

end
-- ==== Proof.KernelValue.lean ====
/-
  The kernel's result array, through the whole of @main, is the layer's output.

  @main is five stretches: S is viewed as a column; the first call forms the weight; x is flattened to [16384, 4096] and
  the bias viewed as a row; the second call forms the affine map of the flat rows; the flat result is viewed as
  [8, 2048, 4096]. No stretch writes an argument, the first call writes only the weight and the second only its output,
  so each stage finds the arrays the earlier stages left: the contents at the last boundary, at the result array, are
      cast (affineRows (cast x) (scaledProduct U (cast S) Vt) (cast bias)),
  which `LowRankLinear.result_eq` identifies with `result` of the five arguments.
-/
import proofs.«143076_j12086037971009_1_alg».proof.Proof.KernelIdealRun
import proofs.«143076_j12086037971009_1_alg».proof.Proof.WeightStage
import proofs.«143076_j12086037971009_1_alg».proof.Proof.AffineStage
import proofs.«143076_j12086037971009_1_alg».proof.Proof.Spec
import Idealize.ShloMosaic.Lib.StableHlo.Run

set_option maxRecDepth 16384

noncomputable section

namespace Cert.KernelIdeal.LayerValue

open Cert.KernelIdeal Cert.KernelIdeal.Gen Idealize.ShloMosaic Idealize.ShloMosaic.TcCoe Idealize.SL.Sem
open Idealize.ShloMosaic.StableHlo LowRankLinear

variable (m : (ℓ : Loc nD τ sig) → Buf (Elt Ideal) ℓ) (ρ : Dev nD → PrngReg)

/-! ## What the first call finds -/

theorem entry0_U (c : Dev nD) : V1 m ρ c main_arg1 = m ((c : Thread nD τ).loc main_arg1) := by
  show StableHlo.after hostOps0 (W0 m ρ c) (Proc.devRef .tc main_arg1) = _
  after_results

theorem entry0_Vt (c : Dev nD) : V1 m ρ c main_arg3 = m ((c : Thread nD τ).loc main_arg3) := by
  show StableHlo.after hostOps0 (W0 m ρ c) (Proc.devRef .tc main_arg3) = _
  after_results

theorem entry0_Scol (c : Dev nD) :
    V1 m ρ c main_v0 = shapeCast S256x1 (m ((c : Thread nD τ).loc main_arg2)) shapeCasts_S256_S256x1 := by
  show StableHlo.after hostOps0 (W0 m ρ c) (Proc.devRef .tc main_v0) = _
  after_results; rfl

/-- After the first call the weight array holds the scaled product of the arguments. -/
theorem weight_eq (c : Dev nD) :
    W2 m ρ c (Proc.devRef .tc main_v1)
      = scaledProduct (m ((c : Thread nD τ).loc main_arg1))
          (shapeCast S256x1 (m ((c : Thread nD τ).loc main_arg2)) shapeCasts_S256_S256x1) (m ((c : Thread nD τ).loc main_arg3)) := by
  refine ((W2_arr m ρ c 3).trans (WeightStage.final (V1 m ρ) c)).trans ?_
  rw [entry0_U, entry0_Vt, entry0_Scol]

/-- The first call and the stretch before it leave x and the bias as launched. -/
theorem kept0_x (c : Dev nD) : W2 m ρ c (Proc.devRef .tc main_arg0) = m ((c : Thread nD τ).loc main_arg0) := by
  refine (W2_of_ne m ρ c main_arg0 (by decide)).trans ?_
  show StableHlo.after hostOps0 (W0 m ρ c) (Proc.devRef .tc main_arg0) = _
  after_results

theorem kept0_bias (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results

/-! ## What the second call finds -/

theorem entry1_X (c : Dev nD) :
    V3 m ρ c main_v2 = shapeCast S16384x4096 (m ((c : Thread nD τ).loc main_arg0)) shapeCasts_S8x2048x4096_S16384x4096 := by
  show StableHlo.after hostOps1 (W2 m ρ c) (Proc.devRef .tc main_v2) = _
  after_results
  rw [kept0_x]; rfl

theorem entry1_brow (c : Dev nD) :
    V3 m ρ c main_v3 = shapeCast S1x4096 (m ((c : Thread nD τ).loc main_arg4)) shapeCasts_S4096_S1x4096 := by
  show StableHlo.after hostOps1 (W2 m ρ c) (Proc.devRef .tc main_v3) = _
  after_results
  rw [kept0_bias]; rfl

theorem entry1_W (c : Dev nD) :
    V3 m ρ c main_v1
      = scaledProduct (m ((c : Thread nD τ).loc main_arg1))
          (shapeCast S256x1 (m ((c : Thread nD τ).loc main_arg2)) shapeCasts_S256_S256x1) (m ((c : Thread nD τ).loc main_arg3)) := by
  show StableHlo.after hostOps1 (W2 m ρ c) (Proc.devRef .tc main_v1) = _
  after_results
  exact weight_eq m ρ c

/-- After the second call its output holds the affine map of the flat rows. -/
theorem flat_eq (c : Dev nD) :
    W4 m ρ c (Proc.devRef .tc main_v4)
      = affineRows (shapeCast S16384x4096 (m ((c : Thread nD τ).loc main_arg0)) shapeCasts_S8x2048x4096_S16384x4096)
          (scaledProduct (m ((c : Thread nD τ).loc main_arg1))
            (shapeCast S256x1 (m ((c : Thread nD τ).loc main_arg2)) shapeCasts_S256_S256x1) (m ((c : Thread nD τ).loc main_arg3)))
          (shapeCast S1x4096 (m ((c : Thread nD τ).loc main_arg4)) shapeCasts_S4096_S1x4096) := by
  refine ((W4_arr m ρ c 3).trans (AffineStage.final (V3 m ρ) c)).trans ?_
  rw [entry1_X, entry1_W, entry1_brow]

/-! ## The result array -/

/-- The contents the run leaves in the result array are the layer's output of the five arguments. -/
theorem value (c : Dev nD) :
    W5 m ρ c (Proc.devRef .tc main_v5)
      = result (m ((c : Thread nD τ).loc main_arg0)) (m ((c : Thread nD τ).loc main_arg1)) (m ((c : Thread nD τ).loc main_arg2))
          (m ((c : Thread nD τ).loc main_arg3)) (m ((c : Thread nD τ).loc main_arg4)) := by
  have h5 : W5 m ρ c (Proc.devRef .tc main_v5)
      = shapeCast S8x2048x4096 (W4 m ρ c (Proc.devRef .tc main_v4)) shapeCasts_S16384x4096_S8x2048x4096 := by
    show StableHlo.after hostOps2 (W4 m ρ c) (Proc.devRef .tc main_v5) = _
    after_results; rfl
  rw [h5, flat_eq]
  exact result_eq _ _ _ _ _ _ _ _ _

/-- The run of the idealized kernel with its result named: the layer's output of the arguments, the arguments as
    launched. -/
theorem run : θ_run defs (onTc (τ := τ) (main (F := Ideal))) ⟨m, fun _ => 0, ρ⟩ (fun r => ∀ c : Dev nD,
      r.2.mem ((c.tc : Thread nD τ).loc main_v5)
        = result (m ((c : Thread nD τ).loc main_arg0)) (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (value m ρ c), (h c).2⟩) (Cert.KernelIdeal.GenRun.run_named m ρ)

end Cert.KernelIdeal.LayerValue

end
-- ==== Proof.ReferenceValue.lean ====
/-
  The reference, read entry by entry, is the layer's output `LowRankLinear.result`.

  Its eight host operations compose to: broadcast S along the rows of Vt and multiply (S[r] · Vt[r, i]); contract U with
  that over r; contract x with the weight over i; add the bias broadcast over (b, t). The only difference from `result`'s
  spelling is the order of the two factors S[r] and Vt[r, i]: multiplication of extended reals is commutative.
-/
import proofs.«143076_j12086037971009_1_alg».proof.Proof.Gen.ReferenceIdeal.Read
import proofs.«143076_j12086037971009_1_alg».proof.Proof.Spec

noncomputable section

open scoped BigOperators

namespace Cert.ReferenceIdeal.LayerValue

open Cert.ReferenceIdeal Cert.ReferenceIdeal.Read Idealize.ShloMosaic Idealize.ShloMosaic.ValueIdx LowRankLinear

/-- The reference's last stage is the layer's output, as functions of the five argument arrays. -/
theorem reference_eq (x0 : (⟨S8x2048x4096, .f32⟩ : BufTy).Contents (Elt Ideal)) (x1 : (⟨S4096x256, .f32⟩ : BufTy).Contents (Elt Ideal))
    (x2 : (⟨S256, .f32⟩ : BufTy).Contents (Elt Ideal)) (x3 : (⟨S256x4096, .f32⟩ : BufTy).Contents (Elt Ideal))
    (x4 : (⟨S4096, .f32⟩ : BufTy).Contents (Elt Ideal)) :
    val_main_v7 (F := Ideal) x0 x1 x2 x3 x4 = result x0 x1 x2 x3 x4 := by
  funext j
  obtain ⟨b, t, o, rfl⟩ : ∃ (b : Fin 8) (t : Fin 2048) (o : Fin 4096), j = ix3 b t o := ⟨j 0, j 1, j 2, eq_ix3 j⟩
  -- the operands' indices of the two contractions and of the broadcasts, at coordinates
  have e4l : ∀ k : Fin 4096, lidx_main_v4 (ix3 b t o) k = ix3 b t k := fun k => funext fun a => Fin.ext (by
    match a with | ⟨0, _⟩ => rfl | ⟨1, _⟩ => rfl | ⟨2, _⟩ => rfl)
  have e4r : ∀ k : Fin 4096, ridx_main_v4 (ix3 b t o) k = ix2 o k := fun k => funext fun a => Fin.ext (by
    match a with | ⟨0, _⟩ => rfl | ⟨1, _⟩ => rfl)
  have e3l : ∀ (k : Fin 4096) (r : Fin 256), lidx_main_v3 (ix2 o k) r = ix2 o r := fun k r => funext fun a => Fin.ext (by
    match a with | ⟨0, _⟩ => rfl | ⟨1, _⟩ => rfl)
  have e3r : ∀ (k : Fin 4096) (r : Fin 256), ridx_main_v3 (ix2 o k) r = ix2 r k := fun k r => funext fun a => Fin.ext (by
    match a with | ⟨0, _⟩ => rfl | ⟨1, _⟩ => rfl)
  have e1 : ∀ (k : Fin 4096) (r : Fin 256), idx_main_v0 (idx_main_v1 (ix2 r k)) = ix1 r := fun k r => funext fun a => Fin.ext (by
    match a with | ⟨0, _⟩ => rfl)
  have e6 : idx_main_v5 (idx_main_v6 (ix3 b t o)) = ix1 o := funext fun a => Fin.ext (by
    match a with | ⟨0, _⟩ => rfl)
  rw [val_main_v7_apply, val_main_v4_apply, val_main_v6_apply, val_main_v5_apply, e6, result_apply]
  show (∑ k : Fin 4096, _) + x4 (ix1 o) = _
  refine congrArg (· + x4 (ix1 o)) (Finset.sum_congr rfl fun k _ => ?_)
  rw [e4l, e4r, val_main_v3_apply]
  refine congrArg (x0 (ix3 b t k) * ·) (Finset.sum_congr rfl fun r _ => ?_)
  rw [e3l, e3r, val_main_v2_apply, val_main_v1_apply, val_main_v0_apply, e1]
  show x1 (ix2 o r) * (x2 (ix1 r) * x3 (ix2 r k)) = x1 (ix2 o r) * (x3 (ix2 r k) * x2 (ix1 r))
  rw [mul_comm (x2 (ix1 r))]

end Cert.ReferenceIdeal.LayerValue

end
-- ==== Proof.lean ====
/-
  A low-rank linear layer, y = x · (U · diag(S) · Vt)ᵀ + bias, as a two-call kernel against its plain jnp reference,
  equal over the extended reals.

  Both programs compute, at (b, t, o),
      Σ_i x[b, t, i] · (Σ_r U[o, r] · (Vt[r, i] · S[r])) + bias[o]
  (`LowRankLinear.result`). The kernel forms the weight tile by tile in its first call (the bf16 round trips are the
  identity on extended reals, the product into a zero accumulator a plain sum), flattens x, and forms the affine map
  tile by tile in its second call; the reference multiplies S into Vt the other way round (commutativity) and
  contracts twice on the host. No law that needs finiteness is used, so the precondition is never opened.

  The three frames: the two kernel programs' are the generated frame certificates; the reference's is its generated run
  with the result dropped. The ideal pass rewrote nothing, so `preserves` is trivial. `algebraic`: the kernel's run with
  its result array named (KernelValue) and the reference's generated run, both at `result` of the arguments.
-/
import proofs.«143076_j12086037971009_1_alg».proof.Defs
import proofs.«143076_j12086037971009_1_alg».proof.Proof.Gen.Kernel
import proofs.«143076_j12086037971009_1_alg».proof.Proof.Gen.Kernel.Frame
import proofs.«143076_j12086037971009_1_alg».proof.Proof.Gen.KernelIdeal
import proofs.«143076_j12086037971009_1_alg».proof.Proof.Gen.KernelIdeal.Frame
import proofs.«143076_j12086037971009_1_alg».proof.Proof.Gen.ReferenceIdeal
import proofs.«143076_j12086037971009_1_alg».proof.Proof.Gen.Pre_finite_inputs
import proofs.«143076_j12086037971009_1_alg».proof.Proof.Gen.ReferenceIdeal.Run
import proofs.«143076_j12086037971009_1_alg».proof.Proof.Gen.ReferenceIdeal.Read
import proofs.«143076_j12086037971009_1_alg».proof.Proof.KernelValue
import proofs.«143076_j12086037971009_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the result array at the layer's output of
    those arguments. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v7_eq _ _ _ _ _).trans (Cert.ReferenceIdeal.LayerValue.reference_eq _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
